-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000x768 : Shape := ⟨2, ![200000, 768]⟩
abbrev S768x256 : Shape := ⟨2, ![768, 256]⟩
abbrev S1x768 : Shape := ⟨2, ![1, 768]⟩
abbrev S256x256 : Shape := ⟨2, ![256, 256]⟩
abbrev S1x256 : Shape := ⟨2, ![1, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000x768 : S_.BroadcastsInDim S200000x768 (![] : Fin 0 → Fin S200000x768.rank)
  reducesTo_S200000x768_S_d0_1 : S200000x768.ReducesTo [0, 1] S_
  bcast_S_S768x256 : S_.BroadcastsInDim S768x256 (![] : Fin 0 → Fin S768x256.rank)
  reducesTo_S768x256_S_d0_1 : S768x256.ReducesTo [0, 1] S_
  bcast_S_S1x768 : S_.BroadcastsInDim S1x768 (![] : Fin 0 → Fin S1x768.rank)
  reducesTo_S1x768_S_d0_1 : S1x768.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x768 .f32) (main_arg5 : FVec F S256x256 .f32) (main_arg6 : FVec F S1x256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S1x768 .f32 := Host.absf main_arg4
  let main_cst_6 : FVec F S_ .f32 := constant S_ .f32 0x7F800000#32
  let main_v20 : FVec F S1x768 .f32 := broadcastInDim S1x768 ![] bcast_S_S1x768 main_cst_6
  let main_v21 : IVec S1x768 1 := cmpf .olt main_v19 main_v20
  let main_c_7 : IVec S_ 1 := constantI S_ 1 1#1
  let main_v22 : IVec S_ 1 := (fun x v => Host.reduce IntOp.andi x v reducesTo_S1x768_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  main_v33

def fn {F : FTy → Type} [FloatOps F] (main_arg0 : FVec F S200000x256 .f32) (main_arg1 : FVec F S200000x768 .f32) (main_arg2 : FVec F S200000x256 .f32) (main_arg3 : FVec F S768x256 .f32) (main_arg4 : FVec F S1x768 .f32) (main_arg5 : FVec F S256x256 .f32) (main_arg6 : FVec F S1x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x768 .f32 := Host.absf main_arg1
  let main_cst_0 : FVec F S_ .f32 := constant S_ .f32 0x7F800000#32
  let main_v5 : FVec F S200000x768 .f32 := broadcastInDim S200000x768 ![] bcast_S_S200000x768 main_cst_0
  let main_v6 : IVec S200000x768 1 := cmpf .olt main_v4 main_v5
  let main_c_1 : IVec S_ 1 := constantI S_ 1 1#1
  let main_v7 : IVec S_ 1 := (fun x v => Host.reduce IntOp.andi x v reducesTo_S200000x768_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_v13 main_v16
-- ==== Kernel.lean ====
abbrev S200000x256 : Shape := ⟨2, ![200000, 256]⟩
abbrev S200000x768 : Shape := ⟨2, ![200000, 768]⟩
abbrev S768x256 : Shape := ⟨2, ![768, 256]⟩
abbrev S1x768 : Shape := ⟨2, ![1, 768]⟩
abbrev S256x256 : Shape := ⟨2, ![256, 256]⟩
abbrev S1x256 : Shape := ⟨2, ![1, 256]⟩
abbrev S256x768 : Shape := ⟨2, ![256, 768]⟩
abbrev S1000x256 : Shape := ⟨2, ![1000, 256]⟩
abbrev S1000x768 : Shape := ⟨2, ![1000, 768]⟩

abbrev nBuf : Space → Nat
  | .hbm => 14
  | .vmem => 16
  | .smem => 0
  | _ => 0

abbrev bufTy : (tb : Table) → Fin (tcTables nBuf tb) → BufTy
  | .hbm, ⟨0, _⟩ => ⟨S200000x256, .f32⟩
  | .hbm, ⟨1, _⟩ => ⟨S200000x768, .f32⟩
  | .hbm, ⟨2, _⟩ => ⟨S200000x256, .f32⟩
  | .hbm, ⟨3, _⟩ => ⟨S768x256, .f32⟩
  | .hbm, ⟨4, _⟩ => ⟨S1x768, .f32⟩
  | .hbm, ⟨5, _⟩ => ⟨S256x256, .f32⟩
  | .hbm, ⟨6, _⟩ => ⟨S1x256, .f32⟩
  | .hbm, ⟨7, _⟩ => ⟨S256x768, .f32⟩
  | .hbm, ⟨8, _⟩ => ⟨S256x768, .bf16⟩
  | .hbm, ⟨9, _⟩ => ⟨S256x256, .f32⟩
  | .hbm, ⟨10, _⟩ => ⟨S256x256, .bf16⟩
  | .hbm, ⟨11, _⟩ => ⟨S200000x256, .f32⟩
  | .hbm, ⟨12, _⟩ => ⟨S200000x256, .f32⟩
  | .hbm, ⟨13, _⟩ => ⟨S200000x256, .f32⟩
  | .local _ .vmem, ⟨0, _⟩ => ⟨S1000x256, .f32⟩
  | .local _ .vmem, ⟨1, _⟩ => ⟨S1000x256, .f32⟩
  | .local _ .vmem, ⟨2, _⟩ => ⟨S1000x768, .f32⟩
  | .local _ .vmem, ⟨3, _⟩ => ⟨S1000x768, .f32⟩
  | .local _ .vmem, ⟨4, _⟩ => ⟨S1000x256, .f32⟩
  | .local _ .vmem, ⟨5, _⟩ => ⟨S1000x256, .f32⟩
  | .local _ .vmem, ⟨6, _⟩ => ⟨S256x768, .bf16⟩
  | .local _ .vmem, ⟨7, _⟩ => ⟨S1x768, .f32⟩
  | .local _ .vmem, ⟨8, _⟩ => ⟨S256x256, .bf16⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S768x256_S256x768_1_0 : S768x256.Transposes [1, 0] S256x768
  bitsLt_bf16_f32 : FTy.bits .bf16 < FTy.bits .f32
  transposes_S256x256_S256x256_1_0 : S256x256.Transposes [1, 0] S256x256
  inb_S1000x256_S1000x256_0_0 : ∀ a, (![0, 0] : Fin 2 → Nat) a + S1000x256.size a ≤ S1000x256.size a
  h_S1000x256 : 0 < S1000x256.numel
  inb_S256x768_S256x256_0_0 : ∀ a, (![0, 0] : Fin 2 → Nat) a + S256x256.size a ≤ S256x768.size a
  h_S256x256 : 0 < S256x256.numel
  shapeCasts_S256x256_S256x256 : S256x256.ShapeCasts S256x256
  inb_S256x768_S256x256_0_256 : ∀ a, (![0, 256] : Fin 2 → Nat) a + S256x256.size a ≤ S256x768.size a
  inb_S256x768_S256x256_0_512 : ∀ a, (![0, 512] : Fin 2 → Nat) a + S256x256.size a ≤ S256x768.size a
  inb_S1x768_S1x256_0_0 : ∀ a, (![0, 0] : Fin 2 → Nat) a + S1x256.size a ≤ S1x768.size a
  h_S1x256 : 0 < S1x256.numel
  broadcasts_S1x256_S1000x256 : S1x256.Broadcasts S1000x256
  inb_S1000x768_S1000x256_0_0 : ∀ a, (![0, 0] : Fin 2 → Nat) a + S1000x256.size a ≤ S1000x768.size a
  inb_S1x768_S1x256_0_256 : ∀ a, (![0, 256] : Fin 2 → Nat) a + S1x256.size a ≤ S1x768.size a
  inb_S1000x768_S1000x256_0_256 : ∀ a, (![0, 256] : Fin 2 → Nat) a + S1000x256.size a ≤ S1000x768.size a
  inb_S1x768_S1x256_0_512 : ∀ a, (![0, 512] : Fin 2 → Nat) a + S1x256.size a ≤ S1x768.size a
  inb_S1000x768_S1000x256_0_512 : ∀ a, (![0, 512] : Fin 2 → Nat) a + S1000x256.size a ≤ S1000x768.size a
  inb_S256x256_S256x256_0_0 : ∀ a, (![0, 0] : Fin 2 → Nat) a + S256x256.size a ≤ S256x256.size a
  inb_S1x256_S1x256_0_0 : ∀ a, (![0, 0] : Fin 2 → Nat) a + S1x256.size a ≤ S1x256.size a
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S200000x256.size a
  hwx0_0 : ∀ i : grid0.Coords, EltTy.bits .f32 = 32 ∨ (Rect.block (s := S200000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S200000x768.size a
  hwx0_1 : ∀ i : grid0.Coords, EltTy.bits .f32 = 32 ∨ (Rect.block (s := S200000x768) S1000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S200000x256.size a
  hwx0_2 : ∀ i : grid0.Coords, EltTy.bits .f32 = 32 ∨ (Rect.block (s := S200000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S200000x256.size a
  hwx0_7 : ∀ i : grid0.Coords, EltTy.bits .f32 = 32 ∨ (Rect.block (s := S200000x256) S1000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x256.size a ≤ S200000x256.size a
  hwx0_8 : ∀ i : grid0.Coords, EltTy.bits .f32 = 32 ∨ (Rect.block (s := S200000x256) S1000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S200000x256.size a
  hwx0_9 : ∀ i : grid0.Coords, EltTy.bits .f32 = 32 ∨ (Rect.block (s := S200000x256) S1000x256.size (cc0_transform_9 i) (hinb0_9 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x256 : Shape := ⟨2, ![200000, 256]⟩
abbrev S200000x768 : Shape := ⟨2, ![200000, 768]⟩
abbrev S768x256 : Shape := ⟨2, ![768, 256]⟩
abbrev S1x768 : Shape := ⟨2, ![1, 768]⟩
abbrev S256x256 : Shape := ⟨2, ![256, 256]⟩
abbrev S1x256 : Shape := ⟨2, ![1, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x768, .f32⟩
  | .hbm, ⟨2, _⟩ => ⟨S200000x256, .f32⟩
  | .hbm, ⟨3, _⟩ => ⟨S768x256, .f32⟩
  | .hbm, ⟨4, _⟩ => ⟨S1x768, .f32⟩
  | .hbm, ⟨5, _⟩ => ⟨S256x256, .f32⟩
  | .hbm, ⟨6, _⟩ => ⟨S1x256, .f32⟩
  | .hbm, ⟨7, _⟩ => ⟨S200000x768, .f32⟩
  | .hbm, ⟨8, _⟩ => ⟨S200000x768, .f32⟩
  | .hbm, ⟨9, _⟩ => ⟨S200000x768, .f32⟩
  | .hbm, ⟨10, _⟩ => ⟨S200000x256, .f32⟩
  | .hbm, ⟨11, _⟩ => ⟨S200000x256, .f32⟩
  | .hbm, ⟨12, _⟩ => ⟨S200000x256, .f32⟩
  | .hbm, ⟨13, _⟩ => ⟨S200000x768, .f32⟩
  | .hbm, ⟨14, _⟩ => ⟨S200000x256, .f32⟩
  | .hbm, ⟨15, _⟩ => ⟨S200000x256, .f32⟩
  | .hbm, ⟨16, _⟩ => ⟨S200000x256, .f32⟩
  | .hbm, ⟨17, _⟩ => ⟨S200000x256, .f32⟩
  | .hbm, ⟨18, _⟩ => ⟨S200000x256, .f32⟩
  | .hbm, ⟨19, _⟩ => ⟨S_, .f32⟩
  | .hbm, ⟨20, _⟩ => ⟨S200000x256, .f32⟩
  | .hbm, ⟨21, _⟩ => ⟨S200000x256, .f32⟩
  | .hbm, ⟨22, _⟩ => ⟨S_, .f32⟩
  | .hbm, ⟨23, _⟩ => ⟨S200000x256, .f32⟩
  | .hbm, ⟨24, _⟩ => ⟨S200000x256, .f32⟩
  | .hbm, ⟨25, _⟩ => ⟨S200000x256, .f32⟩
  | .hbm, ⟨26, _⟩ => ⟨S200000x256, .f32⟩
  | .hbm, ⟨27, _⟩ => ⟨S200000x256, .f32⟩
  | .hbm, ⟨28, _⟩ => ⟨S200000x256, .f32⟩
  | .hbm, ⟨29, _⟩ => ⟨S200000x256, .f32⟩
  | .hbm, ⟨30, _⟩ => ⟨S_, .f32⟩
  | .hbm, ⟨31, _⟩ => ⟨S200000x256, .f32⟩
  | .hbm, ⟨32, _⟩ => ⟨S200000x256, .f32⟩
  | .hbm, ⟨33, _⟩ => ⟨S_, .f32⟩
  | .hbm, ⟨34, _⟩ => ⟨S200000x256, .f32⟩
  | .hbm, ⟨35, _⟩ => ⟨S200000x256, .f32⟩
  | .hbm, ⟨36, _⟩ => ⟨S200000x256, .f32⟩
  | .hbm, ⟨37, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1x768_S200000x768_0_1 : S1x768.BroadcastsInDim S200000x768 (![0, 1] : Fin 2 → Fin S200000x768.rank)
  bcast_S1x256_S200000x256_0_1 : S1x256.BroadcastsInDim S200000x256 (![0, 1] : Fin 2 → Fin S200000x256.rank)
  slices_S200000x768_S200000x256_0_0 : S200000x768.Slices ![0, 0] S200000x256
  slices_S200000x768_S200000x256_0_256 : S200000x768.Slices ![0, 256] S200000x256
  slices_S200000x768_S200000x256_0_512 : S200000x768.Slices ![0, 512] S200000x256
  bcast_S_S200000x256 : S_.BroadcastsInDim S200000x256 (![] : Fin 0 → Fin S200000x256.rank)
  dot_S200000x256_S768x256_S200000x768_1_1_0_0_n_n_wf : DotDims.WF S200000x256 S768x256 S200000x768 [1] [1] [0] [0] [] []
  dot_S200000x256_S256x256_S200000x256_1_1_0_0_n_n_wf : DotDims.WF S200000x256 S256x256 S200000x256 [1] [1] [0] [0] [] []

variable [Facts₀]

def dot_S200000x256_S768x256_S200000x768_1_1_0_0_n_n : DotDims S200000x256 S768x256 S200000x768 where
  lhsContracting := [1]
  rhsContracting := [1]
  lhsNonContracting := [0]
  rhsNonContracting := [0]
  lhsBatch := []
  rhsBatch := []
  wf := dot_S200000x256_S768x256_S200000x768_1_1_0_0_n_n_wf
def dot_S200000x256_S256x256_S200000x256_1_1_0_0_n_n : DotDims S200000x256 S256x256 S200000x256 where
  lhsContracting := [1]
  rhsContracting := [1]
  lhsNonContracting := [0]
  rhsNonContracting := [0]
  lhsBatch := []
  rhsBatch := []
  wf := dot_S200000x256_S256x256_S200000x256_1_1_0_0_n_n_wf

class Facts : Prop extends Facts₀ where

variable [Facts]
-- ==== Proof.Spec.lean ====
/-
  The mathematics of one child-sum Tree-LSTM node update, as functions on the extended reals.

  A node `n` has an input row `x[n, :]` (256 entries), summed child messages `U[n, :]` (768 entries: three gate
  blocks of 256) and a summed forget term `fc[n, :]`. With the gate weights `W` (768 × 256) and bias `b`
  (1 × 768), gate column `j` has the pre-activation

      g[n, j] = (Σ_k x[n, k] · W[j, k]) + b[0, j] + U[n, j],

  the cell state is  c[n, q] = σ(g[n, q]) · tanh(g[n, 512 + q]) + fc[n, q],
  the hidden state   h[n, q] = σ(g[n, 256 + q]) · tanh(c[n, q]),
  and the forget projection is  xf[n, q] = (Σ_k x[n, k] · Wf[q, k]) + bf[0, q].

  Here σ is the logistic function `1 / (1 + e^(-z))` and every operation is the exact one on the extended reals.
  The order of the two additions in `g` is the one both programs use, so no law that needs finiteness is ever asked.
-/
import Idealize.ShloMosaic.PureOps.Ideal
import Idealize.ShloMosaic.PureOps.Ideal.Laws
import Idealize.ShloMosaic.Lib.ValueIdx

noncomputable section

open scoped BigOperators

namespace Cert.TreeLstm

open Idealize.ShloMosaic Idealize.ShloMosaic.ValueIdx

/-! ## One entry -/

/-- A gate's pre-activation from the node's input row, the gate column's weight row, its bias and the child sum. -/
def preact (xrow wrow : Fin 256 → EReal) (b u : EReal) : EReal := (∑ k : Fin 256, xrow k * wrow k) + b + u

/-- The cell state from the input gate's and the update gate's pre-activations and the forget term. -/
def cellOf (gi gu fc : EReal) : EReal := Ideal.logistic gi * Ideal.tanh gu + fc

/-- The hidden state from the output gate's pre-activation and the cell state. -/
def hiddenOf (go c : EReal) : EReal := Ideal.logistic go * Ideal.tanh c

/-- The forget projection: a row times a weight row, plus the bias. -/
def projOf (xrow wrow : Fin 256 → EReal) (b : EReal) : EReal := (∑ k : Fin 256, xrow k * wrow k) + b

/-! ## The three gate blocks among the 768 gate columns -/

/-- Column `q` of the input gate's block. -/
def colI (q : Fin 256) : Fin 768 := ⟨q.val, by have := q.isLt; omega⟩
/-- Column `q` of the output gate's block. -/
def colO (q : Fin 256) : Fin 768 := ⟨256 + q.val, by have := q.isLt; omega⟩
/-- Column `q` of the update gate's block. -/
def colU (q : Fin 256) : Fin 768 := ⟨512 + q.val, by have := q.isLt; omega⟩

/-! ## The whole arrays -/

section Arrays

variable (X : (⟨2, ![200000, 256]⟩ : Shape).Idx → EReal) (U : (⟨2, ![200000, 768]⟩ : Shape).Idx → EReal)
  (FC : (⟨2, ![200000, 256]⟩ : Shape).Idx → EReal) (W : (⟨2, ![768, 256]⟩ : Shape).Idx → EReal)
  (B : (⟨2, ![1, 768]⟩ : Shape).Idx → EReal) (WF : (⟨2, ![256, 256]⟩ : Shape).Idx → EReal)
  (BF : (⟨2, ![1, 256]⟩ : Shape).Idx → EReal)

/-- Gate column `j`'s pre-activation at node `n`. -/
def gate (n : Fin 200000) (j : Fin 768) : EReal :=
  preact (fun k => X (ix2 n k)) (fun k => W (ix2 j k)) (B (ix2 0 j)) (U (ix2 n j))

/-- The cell state at node `n`, column `q`. -/
def cellAt (n : Fin 200000) (q : Fin 256) : EReal :=
  cellOf (gate X U W B n (colI q)) (gate X U W B n (colU q)) (FC (ix2 n q))

/-- The hidden state at node `n`, column `q`. -/
def hiddenAt (n : Fin 200000) (q : Fin 256) : EReal :=
  hiddenOf (gate X U W B n (colO q)) (cellAt X U FC W B n q)

/-- The forget projection at node `n`, column `q`. -/
def projAt (n : Fin 200000) (q : Fin 256) : EReal :=
  projOf (fun k => X (ix2 n k)) (fun k => WF (ix2 q k)) (BF (ix2 0 q))

/-- The cell states as an array. -/
def cellArr : (⟨2, ![200000, 256]⟩ : Shape).Idx → EReal := fun i => cellAt X U FC W B (i 0) (i 1)
/-- The hidden states as an array. -/
def hiddenArr : (⟨2, ![200000, 256]⟩ : Shape).Idx → EReal := fun i => hiddenAt X U FC W B (i 0) (i 1)
/-- The forget projections as an array. -/
def projArr : (⟨2, ![200000, 256]⟩ : Shape).Idx → EReal := fun i => projAt X WF BF (i 0) (i 1)

theorem cellArr_ix2 (n : Fin 200000) (q : Fin 256) : cellArr X U FC W B (ix2 n q) = cellAt X U FC W B n q := rfl
theorem hiddenArr_ix2 (n : Fin 200000) (q : Fin 256) : hiddenArr X U FC W B (ix2 n q) = hiddenAt X U FC W B n q := rfl
theorem projArr_ix2 (n : Fin 200000) (q : Fin 256) : projArr X WF BF (ix2 n q) = projAt X WF BF n q := rfl

end Arrays

/-! ## Two facts about the extended reals' reading of the programs' words -/

/-- The word `0x3F800000` is the number one. -/
theorem one_f32 : Ideal.ofBits .f32 0x3F800000#32 = 1 := by
  simp [Ideal.ofBits, Ideal.ieee, -EReal.coe_mul]; norm_num

/-- The logistic function is the quotient the reference spells out: `1 / (1 + e^(-z))`. -/
theorem logistic_eq (z : EReal) : Ideal.div 1 (1 + Ideal.exp (-z)) = Ideal.logistic z := rfl

end Cert.TreeLstm

end
-- ==== Proof.Blocks.lean ====
/-
  Where the body's loads read, in the argument arrays.

  Grid point `t` (of 200) stages rows `1000·t … 1000·t + 999` of the node arrays (the inputs, the child sums, the
  forget terms) and the whole of the small arrays (the transposed weights and the biases) at every point. The body
  reads the child sums and the gate bias through three 256-column rectangles at column offsets 0, 256 and 512, and
  the transposed gate weights likewise. The transposed weights are written before the launch: entry (k, j) of the
  transpose is entry (j, k) of the weights, and narrowing to a shorter float format is the identity on the
  extended reals. So every load, at an entry, is an entry of an argument array at explicit coordinates.
-/
import proofs.«407694_j81235011437264_3_alg».proof.Proof.Gen.KernelIdeal.Value
import proofs.«407694_j81235011437264_3_alg».proof.Proof.Spec
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.TreeLstm Idealize.ShloMosaic.StableHlo

variable (m : (ℓ : Loc nD τ sig) → Buf (Elt Ideal) ℓ)

/-! ## The index maps, decided over the 200 grid points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-! ## The transposed weights, as the launch finds them -/

/-- The gate weights transposed and narrowed, by the two host operations before the launch. -/
theorem wT_eq (c : Dev nD) :
    (V m c main_v1 : S256x768.Idx → Elt Ideal .bf16)
      = truncf (F := Ideal) .bf16 (transpose S256x768 [1, 0] (m ((c : Thread nD τ).loc main_arg3) : S768x256.Idx → Elt Ideal .f32) transposes_S768x256_S256x768_1_0) bitsLt_bf16_f32 := by
  dsimp only [V, hostOps0]; after_results

/-- The forget weights transposed and narrowed, likewise. -/
theorem wfT_eq (c : Dev nD) :
    (V m c main_v3 : S256x256.Idx → Elt Ideal .bf16)
      = truncf (F := Ideal) .bf16 (transpose S256x256 [1, 0] (m ((c : Thread nD τ).loc main_arg5) : S256x256.Idx → Elt Ideal .f32) transposes_S256x256_S256x256_1_0) bitsLt_bf16_f32 := by
  dsimp only [V, hostOps0]; after_results

/-- Entry (k, j) of the transposed gate weights is entry (j, k) of the gate weights. -/
theorem wT_apply (c : Dev nD) (k : Fin 256) (j : Fin 768) :
    (V m c main_v1 : S256x768.Idx → Elt Ideal .bf16) (ix2 k j)
      = (m ((c : Thread nD τ).loc main_arg3) : S768x256.Idx → Elt Ideal .f32) (ix2 j k) := by
  rw [wT_eq]
  show transpose S256x768 [1, 0] (m ((c : Thread nD τ).loc main_arg3) : S768x256.Idx → Elt Ideal .f32) transposes_S768x256_S256x768_1_0 (ix2 k j) = _
  exact transpose_apply [1, 0] _ transposes_S768x256_S256x768_1_0 (ix2 k j) (ix2 j k) (fun b => match b with
    | ⟨0, _⟩ => rfl
    | ⟨1, _⟩ => rfl)

/-- Entry (k, q) of the transposed forget weights is entry (q, k) of the forget weights. -/
theorem wfT_apply (c : Dev nD) (k q : Fin 256) :
    (V m c main_v3 : S256x256.Idx → Elt Ideal .bf16) (ix2 k q)
      = (m ((c : Thread nD τ).loc main_arg5) : S256x256.Idx → Elt Ideal .f32) (ix2 q k) := by
  rw [wfT_eq]
  show transpose S256x256 [1, 0] (m ((c : Thread nD τ).loc main_arg5) : S256x256.Idx → Elt Ideal .f32) transposes_S256x256_S256x256_1_0 (ix2 k q) = _
  exact transpose_apply [1, 0] _ transposes_S256x256_S256x256_1_0 (ix2 k q) (ix2 q k) (fun b => match b with
    | ⟨0, _⟩ => rfl
    | ⟨1, _⟩ => rfl)

/-! ## Each load of the body, at an entry

`n` is the node that row `p` of grid point `t`'s block holds: `n = 1000·t + p`. -/

section Reads
variable (c : Dev nD) (t : Fin cfg0.N) (p : Fin 1000) (n : Fin 200000)

/-- The input rows. -/
theorem x_read (hn : n.val = t.val * 1000 + p.val) (k : Fin 256) :
    View.ld (iblk m c 0 t) r0_0 (ix2 p k) = (m ((c : Thread nD τ).loc main_arg0) : S200000x256.Idx → Elt Ideal .f32) (ix2 n k) := by
  show V m c main_arg0 _ = _
  rw [V_main_arg0]
  obtain ⟨e0, e1⟩ := idx0 t
  congr 1
  funext a; apply Fin.ext
  match a with
  | ⟨0, _⟩ => show win0_0.index t (0 : Fin 2) * 1000 + 1 * (0 + 1 * p.val) = n.val; omega
  | ⟨1, _⟩ => show win0_0.index t (1 : Fin 2) * 256 + 1 * (0 + 1 * k.val) = k.val; omega

/-- The forget terms. -/
theorem fc_read (hn : n.val = t.val * 1000 + p.val) (q : Fin 256) :
    View.ld (iblk m c 2 t) r0_0 (ix2 p q) = (m ((c : Thread nD τ).loc main_arg2) : S200000x256.Idx → Elt Ideal .f32) (ix2 n q) := by
  show V m c main_arg2 _ = _
  rw [V_main_arg2]
  obtain ⟨e0, e1⟩ := idx2 t
  congr 1
  funext a; apply Fin.ext
  match a with
  | ⟨0, _⟩ => show win0_2.index t (0 : Fin 2) * 1000 + 1 * (0 + 1 * p.val) = n.val; omega
  | ⟨1, _⟩ => show win0_2.index t (1 : Fin 2) * 256 + 1 * (0 + 1 * q.val) = q.val; omega

/-- The child sums of the input gate's block, -/
theorem uI_read (hn : n.val = t.val * 1000 + p.val) (q : Fin 256) :
    View.ld (iblk m c 1 t) r0_5 (ix2 p q) = (m ((c : Thread nD τ).loc main_arg1) : S200000x768.Idx → Elt Ideal .f32) (ix2 n (colI q)) := by
  show V m c main_arg1 _ = _
  rw [V_main_arg1]
  obtain ⟨e0, e1⟩ := idx1 t
  congr 1
  funext a; apply Fin.ext
  match a with
  | ⟨0, _⟩ => show win0_1.index t (0 : Fin 2) * 1000 + 1 * (0 + 1 * p.val) = n.val; omega
  | ⟨1, _⟩ => show win0_1.index t (1 : Fin 2) * 768 + 1 * (0 + 1 * q.val) = q.val; omega

/-- of the output gate's, -/
theorem uO_read (hn : n.val = t.val * 1000 + p.val) (q : Fin 256) :
    View.ld (iblk m c 1 t) r0_7 (ix2 p q) = (m ((c : Thread nD τ).loc main_arg1) : S200000x768.Idx → Elt Ideal .f32) (ix2 n (colO q)) := by
  show V m c main_arg1 _ = _
  rw [V_main_arg1]
  obtain ⟨e0, e1⟩ := idx1 t
  congr 1
  funext a; apply Fin.ext
  match a with
  | ⟨0, _⟩ => show win0_1.index t (0 : Fin 2) * 1000 + 1 * (0 + 1 * p.val) = n.val; omega
  | ⟨1, _⟩ => show win0_1.index t (1 : Fin 2) * 768 + 1 * (256 + 1 * q.val) = 256 + q.val; omega

/-- and of the update gate's. -/
theorem uU_read (hn : n.val = t.val * 1000 + p.val) (q : Fin 256) :
    View.ld (iblk m c 1 t) r0_9 (ix2 p q) = (m ((c : Thread nD τ).loc main_arg1) : S200000x768.Idx → Elt Ideal .f32) (ix2 n (colU q)) := by
  show V m c main_arg1 _ = _
  rw [V_main_arg1]
  obtain ⟨e0, e1⟩ := idx1 t
  congr 1
  funext a; apply Fin.ext
  match a with
  | ⟨0, _⟩ => show win0_1.index t (0 : Fin 2) * 1000 + 1 * (0 + 1 * p.val) = n.val; omega
  | ⟨1, _⟩ => show win0_1.index t (1 : Fin 2) * 768 + 1 * (512 + 1 * q.val) = 512 + q.val; omega

end Reads

section SmallReads
variable (c : Dev nD) (t : Fin cfg0.N)

/-- The gate bias of the input gate's block, -/
theorem bI_read (q : Fin 256) :
    View.ld (iblk m c 4 t) r0_4 (ix2 0 q) = (m ((c : Thread nD τ).loc main_arg4) : S1x768.Idx → Elt Ideal .f32) (ix2 0 (colI q)) := by
  show V m c main_arg4 _ = _
  rw [V_main_arg4]
  obtain ⟨e0, e1⟩ := idx4 t
  congr 1
  funext a; apply Fin.ext
  match a with
  | ⟨0, _⟩ => show win0_4.index t (0 : Fin 2) * 1 + 1 * (0 + 1 * 0) = 0; omega
  | ⟨1, _⟩ => show win0_4.index t (1 : Fin 2) * 768 + 1 * (0 + 1 * q.val) = q.val; omega

/-- of the output gate's, -/
theorem bO_read (q : Fin 256) :
    View.ld (iblk m c 4 t) r0_6 (ix2 0 q) = (m ((c : Thread nD τ).loc main_arg4) : S1x768.Idx → Elt Ideal .f32) (ix2 0 (colO q)) := by
  show V m c main_arg4 _ = _
  rw [V_main_arg4]
  obtain ⟨e0, e1⟩ := idx4 t
  congr 1
  funext a; apply Fin.ext
  match a with
  | ⟨0, _⟩ => show win0_4.index t (0 : Fin 2) * 1 + 1 * (0 + 1 * 0) = 0; omega
  | ⟨1, _⟩ => show win0_4.index t (1 : Fin 2) * 768 + 1 * (256 + 1 * q.val) = 256 + q.val; omega

/-- and of the update gate's. -/
theorem bU_read (q : Fin 256) :
    View.ld (iblk m c 4 t) r0_8 (ix2 0 q) = (m ((c : Thread nD τ).loc main_arg4) : S1x768.Idx → Elt Ideal .f32) (ix2 0 (colU q)) := by
  show V m c main_arg4 _ = _
  rw [V_main_arg4]
  obtain ⟨e0, e1⟩ := idx4 t
  congr 1
  funext a; apply Fin.ext
  match a with
  | ⟨0, _⟩ => show win0_4.index t (0 : Fin 2) * 1 + 1 * (0 + 1 * 0) = 0; omega
  | ⟨1, _⟩ => show win0_4.index t (1 : Fin 2) * 768 + 1 * (512 + 1 * q.val) = 512 + q.val; omega

/-- The forget bias. -/
theorem bf_read (q : Fin 256) :
    View.ld (iblk m c 6 t) r0_11 (ix2 0 q) = (m ((c : Thread nD τ).loc main_arg6) : S1x256.Idx → Elt Ideal .f32) (ix2 0 q) := by
  show V m c main_arg6 _ = _
  rw [V_main_arg6]
  obtain ⟨e0, e1⟩ := idx6 t
  congr 1
  funext a; apply Fin.ext
  match a with
  | ⟨0, _⟩ => show win0_6.index t (0 : Fin 2) * 1 + 1 * (0 + 1 * 0) = 0; omega
  | ⟨1, _⟩ => show win0_6.index t (1 : Fin 2) * 256 + 1 * (0 + 1 * q.val) = q.val; omega

/-- Where the three column blocks of the transposed gate weights sit. -/
theorem wI_idx (k q : Fin 256) : ((cfg0.win 3).blk t).view.emb (r0_1.emb (ix2 k q)) = ix2 k (colI q) := by
  obtain ⟨e0, e1⟩ := idx3 t
  funext a; apply Fin.ext
  match a with
  | ⟨0, _⟩ => show win0_3.index t (0 : Fin 2) * 256 + 1 * (0 + 1 * k.val) = k.val; omega
  | ⟨1, _⟩ => show win0_3.index t (1 : Fin 2) * 768 + 1 * (0 + 1 * q.val) = q.val; omega
theorem wO_idx (k q : Fin 256) : ((cfg0.win 3).blk t).view.emb (r0_2.emb (ix2 k q)) = ix2 k (colO q) := by
  obtain ⟨e0, e1⟩ := idx3 t
  funext a; apply Fin.ext
  match a with
  | ⟨0, _⟩ => show win0_3.index t (0 : Fin 2) * 256 + 1 * (0 + 1 * k.val) = k.val; omega
  | ⟨1, _⟩ => show win0_3.index t (1 : Fin 2) * 768 + 1 * (256 + 1 * q.val) = 256 + q.val; omega
theorem wU_idx (k q : Fin 256) : ((cfg0.win 3).blk t).view.emb (r0_3.emb (ix2 k q)) = ix2 k (colU q) := by
  obtain ⟨e0, e1⟩ := idx3 t
  funext a; apply Fin.ext
  match a with
  | ⟨0, _⟩ => show win0_3.index t (0 : Fin 2) * 256 + 1 * (0 + 1 * k.val) = k.val; omega
  | ⟨1, _⟩ => show win0_3.index t (1 : Fin 2) * 768 + 1 * (512 + 1 * q.val) = 512 + q.val; omega
theorem wf_idx (k q : Fin 256) : ((cfg0.win 5).blk t).view.emb (r0_10.emb (ix2 k q)) = ix2 k q := by
  obtain ⟨e0, e1⟩ := idx5 t
  funext a; apply Fin.ext
  match a with
  | ⟨0, _⟩ => show win0_5.index t (0 : Fin 2) * 256 + 1 * (0 + 1 * k.val) = k.val; omega
  | ⟨1, _⟩ => show win0_5.index t (1 : Fin 2) * 256 + 1 * (0 + 1 * q.val) = q.val; omega

/-- The gate weights: column `q` of a gate's block of the transpose, at row `k`, is the gate column's weight row at `k`. -/
theorem wI_read (k q : Fin 256) :
    View.ld (iblk m c 3 t) r0_1 (ix2 k q) = (m ((c : Thread nD τ).loc main_arg3) : S768x256.Idx → Elt Ideal .f32) (ix2 (colI q) k) := by
  show (V m c main_v1 : S256x768.Idx → Elt Ideal .bf16) (((cfg0.win 3).blk t).view.emb (r0_1.emb (ix2 k q))) = _
  rw [wI_idx]; exact wT_apply m c k (colI q)
theorem wO_read (k q : Fin 256) :
    View.ld (iblk m c 3 t) r0_2 (ix2 k q) = (m ((c : Thread nD τ).loc main_arg3) : S768x256.Idx → Elt Ideal .f32) (ix2 (colO q) k) := by
  show (V m c main_v1 : S256x768.Idx → Elt Ideal .bf16) (((cfg0.win 3).blk t).view.emb (r0_2.emb (ix2 k q))) = _
  rw [wO_idx]; exact wT_apply m c k (colO q)
theorem wU_read (k q : Fin 256) :
    View.ld (iblk m c 3 t) r0_3 (ix2 k q) = (m ((c : Thread nD τ).loc main_arg3) : S768x256.Idx → Elt Ideal .f32) (ix2 (colU q) k) := by
  show (V m c main_v1 : S256x768.Idx → Elt Ideal .bf16) (((cfg0.win 3).blk t).view.emb (r0_3.emb (ix2 k q))) = _
  rw [wU_idx]; exact wT_apply m c k (colU q)

/-- The forget weights, likewise. -/
theorem wf_read (k q : Fin 256) :
    View.ld (iblk m c 5 t) r0_10 (ix2 k q) = (m ((c : Thread nD τ).loc main_arg5) : S256x256.Idx → Elt Ideal .f32) (ix2 q k) := by
  show (V m c main_v3 : S256x256.Idx → Elt Ideal .bf16) (((cfg0.win 5).blk t).view.emb (r0_10.emb (ix2 k q))) = _
  rw [wf_idx]; exact wfT_apply m c k q

end SmallReads

end Cert.KernelIdeal.Hand

end
-- ==== Proof.Payload.lean ====
/-
  What the kernel's body computes, entry by entry.

  On a block of 1000 nodes the body forms three products of the block's input rows with a 256 × 256 column block
  of the transposed gate weights, adds the matching 256 bias entries (one row, repeated down the block) and the
  matching 256 columns of the child sums, and applies the gate functions; a fourth product with the transposed
  forget weights plus its bias is the forget projection. Entry (p, q) of a product is the sum over the 256 shared
  coordinates of `a[p, k] · w[k, q]`: the matrix unit's product into a zero accumulator is exactly that sum on the
  extended reals, and narrowing the input rows to a shorter float format changes nothing there.
-/
import proofs.«407694_j81235011437264_3_alg».proof.Proof.Gen.KernelIdeal.Skeleton
import proofs.«407694_j81235011437264_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.TreeLstm

/-! ## The product's operand indices: rows of the left operand, columns of the right -/

theorem mm_lhs_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem mm_lhs_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem mm_rhs_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem mm_rhs_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- Entry (p, q) of the block product into a zero accumulator: row `p` of the left operand against column `q`
    of the right. -/
theorem mm_apply (a : FVec Ideal S1000x256 .bf16) (w : FVec Ideal S256x256 .bf16) (p : Fin 1000) (q : Fin 256) :
    matmul dot_S1000x256_S256x256_S1000x256_1_0_0_1_n_n none a w (constant (F := Ideal) S1000x256 .f32 0x00000000#32) (ix2 p q)
      = ∑ k : Fin 256, a (ix2 p k) * w (ix2 k q) := by
  show FloatOps.matmul dot_S1000x256_S256x256_S1000x256_1_0_0_1_n_n none a w (constant (F := Ideal) S1000x256 .f32 0x00000000#32) (ix2 p q) = _
  rw [Ideal.matmul_constant_zero_apply, ← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p q) ((ValueIdx.contrEquiv1 dot_S1000x256_S256x256_S1000x256_1_0_0_1_n_n 256 rfl rfl).symm k) = ix2 p k := funext fun a => Fin.ext (by
    match a with
    | ⟨0, _⟩ => exact mm_lhs_0 _ _
    | ⟨1, _⟩ => exact (mm_lhs_1 _ _).trans hk)
  have er : dot_S1000x256_S256x256_S1000x256_1_0_0_1_n_n.rhsIdx (ix2 p q) ((ValueIdx.contrEquiv1 dot_S1000x256_S256x256_S1000x256_1_0_0_1_n_n 256 rfl rfl).symm k) = ix2 k q := funext fun a => Fin.ext (by
    match a with
    | ⟨0, _⟩ => exact (mm_rhs_0 _ _).trans hk
    | ⟨1, _⟩ => exact mm_rhs_1 _ _)
  rw [el, er]

/-- A one-row vector repeated down the block reads its own column. -/
theorem brow_apply (b : FVec Ideal S1x256 .f32) (p : Fin 1000) (q : Fin 256) :
    broadcastTo S1000x256 b broadcasts_S1x256_S1000x256 (ix2 p q) = b (ix2 0 q) :=
  broadcastTo_apply b broadcasts_S1x256_S1000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-! ## The three stored values -/

section
variable (v0 : FVec Ideal S1000x256 .f32) (v2 v4 v6 v34 : FVec Ideal S256x256 .bf16)
  (v9 v15 v21 v37 : FVec Ideal S1x256 .f32) (v12 v18 v24 v29 : FVec Ideal S1000x256 .f32)
  (p : Fin 1000) (q : Fin 256)

/-- The forget projection's entry. -/
theorem proj_entry :
    k0_pay1 (F := Ideal) (k0_pay2 (F := Ideal) v0) v34 v37 (ix2 p q)
      = projOf (fun k => v0 (ix2 p k)) (fun k => v34 (ix2 k q)) (v37 (ix2 0 q)) := by
  unfold k0_pay1 k0_pay2
  simp only [shapeCast_self]
  show matmul dot_S1000x256_S256x256_S1000x256_1_0_0_1_n_n none (truncf .bf16 v0 bitsLt_bf16_f32) v34 (constant (F := Ideal) S1000x256 .f32 0x00000000#32) (ix2 p q)
      + broadcastTo S1000x256 v37 broadcasts_S1x256_S1000x256 (ix2 p q) = _
  rw [mm_apply, brow_apply]
  rfl

/-- The cell state's entry. -/
theorem cell_entry :
    k0_pay3 (F := Ideal) v0 v2 v6 v9 v12 v21 v24 v29 (ix2 p q)
      = cellOf (preact (fun k => v0 (ix2 p k)) (fun k => v2 (ix2 k q)) (v9 (ix2 0 q)) (v12 (ix2 p q)))
          (preact (fun k => v0 (ix2 p k)) (fun k => v6 (ix2 k q)) (v21 (ix2 0 q)) (v24 (ix2 p q))) (v29 (ix2 p q)) := by
  unfold k0_pay3 k0_pay2
  simp only [shapeCast_self]
  show Ideal.logistic (matmul dot_S1000x256_S256x256_S1000x256_1_0_0_1_n_n none (truncf .bf16 v0 bitsLt_bf16_f32) v2 (constant (F := Ideal) S1000x256 .f32 0x00000000#32) (ix2 p q)
        + broadcastTo S1000x256 v9 broadcasts_S1x256_S1000x256 (ix2 p q) + v12 (ix2 p q))
      * Ideal.tanh (matmul dot_S1000x256_S256x256_S1000x256_1_0_0_1_n_n none (truncf .bf16 v0 bitsLt_bf16_f32) v6 (constant (F := Ideal) S1000x256 .f32 0x00000000#32) (ix2 p q)
        + broadcastTo S1000x256 v21 broadcasts_S1x256_S1000x256 (ix2 p q) + v24 (ix2 p q))
      + v29 (ix2 p q) = _
  rw [mm_apply, mm_apply, brow_apply, brow_apply]
  rfl

/-- The hidden state's entry, over the cell state's. -/
theorem hidden_entry :
    k0_pay4 (F := Ideal) v0 v2 v4 v6 v9 v12 v15 v18 v21 v24 v29 (ix2 p q)
      = hiddenOf (preact (fun k => v0 (ix2 p k)) (fun k => v4 (ix2 k q)) (v15 (ix2 0 q)) (v18 (ix2 p q)))
          (k0_pay3 (F := Ideal) v0 v2 v6 v9 v12 v21 v24 v29 (ix2 p q)) := by
  unfold k0_pay4 k0_pay2
  simp only [shapeCast_self]
  show Ideal.logistic (matmul dot_S1000x256_S256x256_S1000x256_1_0_0_1_n_n none (truncf .bf16 v0 bitsLt_bf16_f32) v4 (constant (F := Ideal) S1000x256 .f32 0x00000000#32) (ix2 p q)
        + broadcastTo S1000x256 v15 broadcasts_S1x256_S1000x256 (ix2 p q) + v18 (ix2 p q))
      * Ideal.tanh (k0_pay3 (F := Ideal) v0 v2 v6 v9 v12 v21 v24 v29 (ix2 p q)) = _
  rw [mm_apply, brow_apply]
  rfl

end

end Cert.KernelIdeal.Hand

end
-- ==== Proof.KernelValue.lean ====
/-
  The kernel's three result arrays are the specification's.

  At grid point `t` the body's stores, read at row `p` and column `q` of the block, are the cell state, the hidden
  state and the forget projection of node `n = 1000·t + p` at column `q`: each load is an entry of an argument
  array at that node or at the gate column (the block reads), so the stored entry is the specification's entry.
  Point `t` writes rows `1000·t … 1000·t + 999` back, and the 200 points cover all 200000 nodes (node `n` lies in
  point `n / 1000`'s block), so after the run each result array is the specification's array.
-/
import proofs.«407694_j81235011437264_3_alg».proof.Proof.Blocks
import proofs.«407694_j81235011437264_3_alg».proof.Proof.Payload

noncomputable section

namespace Cert.KernelIdeal.Hand

open Cert.KernelIdeal Cert.KernelIdeal.Gen Idealize.ShloMosaic Idealize.ShloMosaic.TcCoe Idealize.SL.Sem
open Idealize.ShloMosaic.ValueIdx Cert.TreeLstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The three results, of the launch's argument arrays -/

/-- The hidden states. -/
abbrev hiddens (c : Dev nD) : Buf (Elt Ideal) ((c : Thread nD τ).loc main_v4_0) :=
  hiddenArr (m ((c : Thread nD τ).loc main_arg0)) (m ((c : Thread nD τ).loc main_arg1)) (m ((c : Thread nD τ).loc main_arg2)) (m ((c : Thread nD τ).loc main_arg3)) (m ((c : Thread nD τ).loc main_arg4))
/-- The cell states. -/
abbrev cells (c : Dev nD) : Buf (Elt Ideal) ((c : Thread nD τ).loc main_v4_1) :=
  cellArr (m ((c : Thread nD τ).loc main_arg0)) (m ((c : Thread nD τ).loc main_arg1)) (m ((c : Thread nD τ).loc main_arg2)) (m ((c : Thread nD τ).loc main_arg3)) (m ((c : Thread nD τ).loc main_arg4))
/-- The forget projections. -/
abbrev projs (c : Dev nD) : Buf (Elt Ideal) ((c : Thread nD τ).loc main_v4_2) :=
  projArr (m ((c : Thread nD τ).loc main_arg0)) (m ((c : Thread nD τ).loc main_arg5)) (m ((c : Thread nD τ).loc main_arg6))

/-! ## One block entry -/

section Entry
variable (c : Dev nD) (t : Fin cfg0.N) (p : Fin 1000) (q : Fin 256) (n : Fin 200000)

/-- The cell state the body stores at (p, q) is node `n`'s. -/
theorem cell_block (hn : n.val = t.val * 1000 + p.val) :
    k0_pay3 (F := Ideal) (View.ld (iblk m c 0 t) r0_0) (View.ld (iblk m c 3 t) r0_1) (View.ld (iblk m c 3 t) r0_3) (View.ld (iblk m c 4 t) r0_4)
        (View.ld (iblk m c 1 t) r0_5) (View.ld (iblk m c 4 t) r0_8) (View.ld (iblk m c 1 t) r0_9) (View.ld (iblk m c 2 t) r0_0) (ix2 p q)
      = cellAt (m ((c : Thread nD τ).loc main_arg0)) (m ((c : Thread nD τ).loc main_arg1)) (m ((c : Thread nD τ).loc main_arg2)) (m ((c : Thread nD τ).loc main_arg3)) (m ((c : Thread nD τ).loc main_arg4)) n q := by
  refine (cell_entry (View.ld (iblk m c 0 t) r0_0) (View.ld (iblk m c 3 t) r0_1) (View.ld (iblk m c 3 t) r0_3) (View.ld (iblk m c 4 t) r0_4)
    (View.ld (iblk m c 4 t) r0_8) (View.ld (iblk m c 1 t) r0_5) (View.ld (iblk m c 1 t) r0_9) (View.ld (iblk m c 2 t) r0_0) p q).trans ?_
  unfold cellAt gate
  simp only [x_read m c t p n hn, wI_read m c t, wU_read m c t, bI_read m c t, bU_read m c t, uI_read m c t p n hn, uU_read m c t p n hn,
    fc_read m c t p n hn]

/-- The hidden state the body stores at (p, q) is node `n`'s. -/
theorem hidden_block (hn : n.val = t.val * 1000 + p.val) :
    k0_pay4 (F := Ideal) (View.ld (iblk m c 0 t) r0_0) (View.ld (iblk m c 3 t) r0_1) (View.ld (iblk m c 3 t) r0_2) (View.ld (iblk m c 3 t) r0_3)
        (View.ld (iblk m c 4 t) r0_4) (View.ld (iblk m c 1 t) r0_5) (View.ld (iblk m c 4 t) r0_6) (View.ld (iblk m c 1 t) r0_7)
        (View.ld (iblk m c 4 t) r0_8) (View.ld (iblk m c 1 t) r0_9) (View.ld (iblk m c 2 t) r0_0) (ix2 p q)
      = hiddenAt (m ((c : Thread nD τ).loc main_arg0)) (m ((c : Thread nD τ).loc main_arg1)) (m ((c : Thread nD τ).loc main_arg2)) (m ((c : Thread nD τ).loc main_arg3)) (m ((c : Thread nD τ).loc main_arg4)) n q := by
  refine (hidden_entry (View.ld (iblk m c 0 t) r0_0) (View.ld (iblk m c 3 t) r0_1) (View.ld (iblk m c 3 t) r0_2) (View.ld (iblk m c 3 t) r0_3)
    (View.ld (iblk m c 4 t) r0_4) (View.ld (iblk m c 4 t) r0_6) (View.ld (iblk m c 4 t) r0_8) (View.ld (iblk m c 1 t) r0_5)
    (View.ld (iblk m c 1 t) r0_7) (View.ld (iblk m c 1 t) r0_9) (View.ld (iblk m c 2 t) r0_0) p q).trans ?_
  rw [cell_block m c t p q n hn]
  unfold hiddenAt gate
  simp only [x_read m c t p n hn, wO_read m c t, bO_read m c t, uO_read m c t p n hn]

/-- The forget projection the body stores at (p, q) is node `n`'s. -/
theorem proj_block (hn : n.val = t.val * 1000 + p.val) :
    k0_pay1 (F := Ideal) (k0_pay2 (F := Ideal) (View.ld (iblk m c 0 t) r0_0)) (View.ld (iblk m c 5 t) r0_10) (View.ld (iblk m c 6 t) r0_11) (ix2 p q)
      = projAt (m ((c : Thread nD τ).loc main_arg0)) (m ((c : Thread nD τ).loc main_arg5)) (m ((c : Thread nD τ).loc main_arg6)) n q := by
  refine (proj_entry (View.ld (iblk m c 0 t) r0_0) (View.ld (iblk m c 5 t) r0_10) (View.ld (iblk m c 6 t) r0_11) p q).trans ?_
  unfold projAt
  simp only [x_read m c t p n hn, wf_read m c t, bf_read m c t]

end Entry

/-! ## From blocks to arrays -/

/-- WHAT POINT `t` WRITES BACK to the hidden-state array is block `t` of the specification's array. -/
theorem hiddens_flushed (c : Dev nD) (t : Fin cfg0.N) :
    (dats m 0 c).flushed 7 t = ((cfg0.win 7).blk t).view.read (Elt Ideal) (hiddens m c) := by
  rw [Value.flushed7]
  unfold out0_7
  rw [View.canon_unit_zero hz]
  funext j
  obtain ⟨p, q, rfl⟩ : ∃ (p : Fin 1000) (q : Fin 256), j = ix2 p q := ⟨j 0, j 1, eq_ix2 j⟩
  have hN : cfg0.N = 200 := N_0
  have ht : t.val < 200 := by have := t.isLt; omega
  obtain ⟨e0, e1⟩ := idx7 t
  have hidx : ((cfg0.win 7).blk t).view.emb (ix2 p q) = ix2 (⟨t.val * 1000 + p.val, by have := p.isLt; omega⟩ : Fin 200000) q := by
    funext a; apply Fin.ext
    match a with
    | ⟨0, _⟩ => show win0_7.index t (0 : Fin 2) * 1000 + 1 * p.val = t.val * 1000 + p.val; omega
    | ⟨1, _⟩ => show win0_7.index t (1 : Fin 2) * 256 + 1 * q.val = q.val; omega
  show k0_pay4 (F := Ideal) (View.ld (iblk m c 0 t) r0_0) (View.ld (iblk m c 3 t) r0_1) (View.ld (iblk m c 3 t) r0_2) (View.ld (iblk m c 3 t) r0_3) (View.ld (iblk m c 4 t) r0_4) (View.ld (iblk m c 1 t) r0_5) (View.ld (iblk m c 4 t) r0_6) (View.ld (iblk m c 1 t) r0_7) (View.ld (iblk m c 4 t) r0_8) (View.ld (iblk m c 1 t) r0_9) (View.ld (iblk m c 2 t) r0_0) (ix2 p q)
    = hiddens m c (((cfg0.win 7).blk t).view.emb (ix2 p q))
  rw [hidx]
  exact hidden_block m c t p q _ rfl

/-- An index of the array is in point `t`'s block iff each coordinate is in the block's range on its axis. -/
theorem hiddens_mem_blk (t : Fin cfg0.N) (i : S200000x256.Idx) :
    i ∈ ((cfg0.win 7).blk t).view.set ↔ ∀ a : Fin 2, win0_7.index t a * S1000x256.size a ≤ (i a).val ∧ (i a).val < win0_7.index t a * S1000x256.size a + S1000x256.size a := by
  show i ∈ ((View.whole main_v4_0).slice (win0_7.rect t)).set ↔ _
  rw [View.set_slice_whole, Rect.mem_set_unit]
  exact Iff.rfl

/-- Node `n` lies in point `n / 1000`'s block: the blocks cover the array. -/
theorem hiddens_cover (i : S200000x256.Idx) :
    ∃ t : Fin cfg0.N, (cfg0.win 7).flush t = true ∧ i ∈ ((cfg0.win 7).blk t).view.set := by
  have hN : cfg0.N = 200 := N_0
  have hi0 : (i 0).val < 200000 := (i 0).isLt
  have hi1 : (i 1).val < 256 := (i 1).isLt
  have hlt : (i 0).val / 1000 < cfg0.N := by rw [hN]; omega
  obtain ⟨e0, e1⟩ := idx7 ⟨(i 0).val / 1000, hlt⟩
  have e0' : win0_7.index ⟨(i 0).val / 1000, hlt⟩ (0 : Fin 2) = (i 0).val / 1000 := e0
  refine ⟨⟨(i 0).val / 1000, hlt⟩, flush0_7 _, ?_⟩
  rw [hiddens_mem_blk]
  intro a
  match a with
  | ⟨0, _⟩ => show win0_7.index ⟨(i 0).val / 1000, hlt⟩ (0 : Fin 2) * 1000 ≤ (i 0).val ∧ (i 0).val < win0_7.index ⟨(i 0).val / 1000, hlt⟩ (0 : Fin 2) * 1000 + 1000; omega
  | ⟨1, _⟩ => show win0_7.index ⟨(i 0).val / 1000, hlt⟩ (1 : Fin 2) * 256 ≤ (i 1).val ∧ (i 1).val < win0_7.index ⟨(i 0).val / 1000, hlt⟩ (1 : Fin 2) * 256 + 256; omega

/-- THE ARRAY after the run is the specification's. -/
theorem hiddens_final (c : Dev nD) : (dats m 0 c).arrAt 7 cfg0.N = hiddens m c :=
  (dats m 0 c).arrAt_eq_of_cover 7 (hiddens m c) (fun t _ => hiddens_flushed m c t) hiddens_cover

/-- WHAT POINT `t` WRITES BACK to the cell-state array is block `t` of the specification's array. -/
theorem cells_flushed (c : Dev nD) (t : Fin cfg0.N) :
    (dats m 0 c).flushed 8 t = ((cfg0.win 8).blk t).view.read (Elt Ideal) (cells m c) := by
  rw [Value.flushed8]
  unfold out0_8
  rw [View.canon_unit_zero hz]
  funext j
  obtain ⟨p, q, rfl⟩ : ∃ (p : Fin 1000) (q : Fin 256), j = ix2 p q := ⟨j 0, j 1, eq_ix2 j⟩
  have hN : cfg0.N = 200 := N_0
  have ht : t.val < 200 := by have := t.isLt; omega
  obtain ⟨e0, e1⟩ := idx8 t
  have hidx : ((cfg0.win 8).blk t).view.emb (ix2 p q) = ix2 (⟨t.val * 1000 + p.val, by have := p.isLt; omega⟩ : Fin 200000) q := by
    funext a; apply Fin.ext
    match a with
    | ⟨0, _⟩ => show win0_8.index t (0 : Fin 2) * 1000 + 1 * p.val = t.val * 1000 + p.val; omega
    | ⟨1, _⟩ => show win0_8.index t (1 : Fin 2) * 256 + 1 * q.val = q.val; omega
  show k0_pay3 (F := Ideal) (View.ld (iblk m c 0 t) r0_0) (View.ld (iblk m c 3 t) r0_1) (View.ld (iblk m c 3 t) r0_3) (View.ld (iblk m c 4 t) r0_4) (View.ld (iblk m c 1 t) r0_5) (View.ld (iblk m c 4 t) r0_8) (View.ld (iblk m c 1 t) r0_9) (View.ld (iblk m c 2 t) r0_0) (ix2 p q)
    = cells m c (((cfg0.win 8).blk t).view.emb (ix2 p q))
  rw [hidx]
  exact cell_block m c t p q _ rfl

/-- An index of the array is in point `t`'s block iff each coordinate is in the block's range on its axis. -/
theorem cells_mem_blk (t : Fin cfg0.N) (i : S200000x256.Idx) :
    i ∈ ((cfg0.win 8).blk t).view.set ↔ ∀ a : Fin 2, win0_8.index t a * S1000x256.size a ≤ (i a).val ∧ (i a).val < win0_8.index t a * S1000x256.size a + S1000x256.size a := by
  show i ∈ ((View.whole main_v4_1).slice (win0_8.rect t)).set ↔ _
  rw [View.set_slice_whole, Rect.mem_set_unit]
  exact Iff.rfl

/-- Node `n` lies in point `n / 1000`'s block: the blocks cover the array. -/
theorem cells_cover (i : S200000x256.Idx) :
    ∃ t : Fin cfg0.N, (cfg0.win 8).flush t = true ∧ i ∈ ((cfg0.win 8).blk t).view.set := by
  have hN : cfg0.N = 200 := N_0
  have hi0 : (i 0).val < 200000 := (i 0).isLt
  have hi1 : (i 1).val < 256 := (i 1).isLt
  have hlt : (i 0).val / 1000 < cfg0.N := by rw [hN]; omega
  obtain ⟨e0, e1⟩ := idx8 ⟨(i 0).val / 1000, hlt⟩
  have e0' : win0_8.index ⟨(i 0).val / 1000, hlt⟩ (0 : Fin 2) = (i 0).val / 1000 := e0
  refine ⟨⟨(i 0).val / 1000, hlt⟩, flush0_8 _, ?_⟩
  rw [cells_mem_blk]
  intro a
  match a with
  | ⟨0, _⟩ => show win0_8.index ⟨(i 0).val / 1000, hlt⟩ (0 : Fin 2) * 1000 ≤ (i 0).val ∧ (i 0).val < win0_8.index ⟨(i 0).val / 1000, hlt⟩ (0 : Fin 2) * 1000 + 1000; omega
  | ⟨1, _⟩ => show win0_8.index ⟨(i 0).val / 1000, hlt⟩ (1 : Fin 2) * 256 ≤ (i 1).val ∧ (i 1).val < win0_8.index ⟨(i 0).val / 1000, hlt⟩ (1 : Fin 2) * 256 + 256; omega

/-- THE ARRAY after the run is the specification's. -/
theorem cells_final (c : Dev nD) : (dats m 0 c).arrAt 8 cfg0.N = cells m c :=
  (dats m 0 c).arrAt_eq_of_cover 8 (cells m c) (fun t _ => cells_flushed m c t) cells_cover

/-- WHAT POINT `t` WRITES BACK to the forget-projection array is block `t` of the specification's array. -/
theorem projs_flushed (c : Dev nD) (t : Fin cfg0.N) :
    (dats m 0 c).flushed 9 t = ((cfg0.win 9).blk t).view.read (Elt Ideal) (projs m c) := by
  rw [Value.flushed9]
  unfold out0_9
  rw [View.canon_unit_zero hz]
  funext j
  obtain ⟨p, q, rfl⟩ : ∃ (p : Fin 1000) (q : Fin 256), j = ix2 p q := ⟨j 0, j 1, eq_ix2 j⟩
  have hN : cfg0.N = 200 := N_0
  have ht : t.val < 200 := by have := t.isLt; omega
  obtain ⟨e0, e1⟩ := idx9 t
  have hidx : ((cfg0.win 9).blk t).view.emb (ix2 p q) = ix2 (⟨t.val * 1000 + p.val, by have := p.isLt; omega⟩ : Fin 200000) q := by
    funext a; apply Fin.ext
    match a with
    | ⟨0, _⟩ => show win0_9.index t (0 : Fin 2) * 1000 + 1 * p.val = t.val * 1000 + p.val; omega
    | ⟨1, _⟩ => show win0_9.index t (1 : Fin 2) * 256 + 1 * q.val = q.val; omega
  show k0_pay1 (F := Ideal) (k0_pay2 (F := Ideal) (View.ld (iblk m c 0 t) r0_0)) (View.ld (iblk m c 5 t) r0_10) (View.ld (iblk m c 6 t) r0_11) (ix2 p q)
    = projs m c (((cfg0.win 9).blk t).view.emb (ix2 p q))
  rw [hidx]
  exact proj_block m c t p q _ rfl

/-- An index of the array is in point `t`'s block iff each coordinate is in the block's range on its axis. -/
theorem projs_mem_blk (t : Fin cfg0.N) (i : S200000x256.Idx) :
    i ∈ ((cfg0.win 9).blk t).view.set ↔ ∀ a : Fin 2, win0_9.index t a * S1000x256.size a ≤ (i a).val ∧ (i a).val < win0_9.index t a * S1000x256.size a + S1000x256.size a := by
  show i ∈ ((View.whole main_v4_2).slice (win0_9.rect t)).set ↔ _
  rw [View.set_slice_whole, Rect.mem_set_unit]
  exact Iff.rfl

/-- Node `n` lies in point `n / 1000`'s block: the blocks cover the array. -/
theorem projs_cover (i : S200000x256.Idx) :
    ∃ t : Fin cfg0.N, (cfg0.win 9).flush t = true ∧ i ∈ ((cfg0.win 9).blk t).view.set := by
  have hN : cfg0.N = 200 := N_0
  have hi0 : (i 0).val < 200000 := (i 0).isLt
  have hi1 : (i 1).val < 256 := (i 1).isLt
  have hlt : (i 0).val / 1000 < cfg0.N := by rw [hN]; omega
  obtain ⟨e0, e1⟩ := idx9 ⟨(i 0).val / 1000, hlt⟩
  have e0' : win0_9.index ⟨(i 0).val / 1000, hlt⟩ (0 : Fin 2) = (i 0).val / 1000 := e0
  refine ⟨⟨(i 0).val / 1000, hlt⟩, flush0_9 _, ?_⟩
  rw [projs_mem_blk]
  intro a
  match a with
  | ⟨0, _⟩ => show win0_9.index ⟨(i 0).val / 1000, hlt⟩ (0 : Fin 2) * 1000 ≤ (i 0).val ∧ (i 0).val < win0_9.index ⟨(i 0).val / 1000, hlt⟩ (0 : Fin 2) * 1000 + 1000; omega
  | ⟨1, _⟩ => show win0_9.index ⟨(i 0).val / 1000, hlt⟩ (1 : Fin 2) * 256 ≤ (i 1).val ∧ (i 1).val < win0_9.index ⟨(i 0).val / 1000, hlt⟩ (1 : Fin 2) * 256 + 256; omega

/-- THE ARRAY after the run is the specification's. -/
theorem projs_final (c : Dev nD) : (dats m 0 c).arrAt 9 cfg0.N = projs m c :=
  (dats m 0 c).arrAt_eq_of_cover 9 (projs m c) (fun t _ => projs_flushed m c t) projs_cover

/-! ## The run -/

/-- Every weakly fair execution of the kernel's program ends with the three result arrays at the specification's
    arrays of the launch's arguments, and the arguments as launched. -/
theorem run : θ_run defs (onTc (τ := τ) (main (F := Ideal))) ⟨m, fun _ => 0, ρ⟩ fun r => ∀ c : Dev nD,
      r.2.mem ((c : Thread nD τ).loc main_v4_0) = hiddens m c
      ∧ r.2.mem ((c : Thread nD τ).loc main_v4_1) = cells m c
      ∧ r.2.mem ((c : Thread nD τ).loc main_v4_2) = projs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hiddens_final m c), (h c).2.1.trans (cells_final m c),
      (h c).2.2.1.trans (projs_final m c), (h c).2.2.2⟩)
    (Value.run_blocks m ρ)

end Cert.KernelIdeal.Hand

end
-- ==== Proof.RefSide.lean ====
/-
  The reference computes the specification.

  The reference's three results, read one operation at a time (the generated index-by-index lemmas), are the
  specification's arrays: at node `n` and column `q` its `dot_general` contracts `x[n, :]` with the weight ROW of the
  gate column, its three slices of the 768 gate columns pick the blocks at 0, 256 and 512, and the quotient
  `1 / (1 + e^(-z))` it spells out with host operations is the logistic function.
-/
import proofs.«407694_j81235011437264_3_alg».proof.Proof.Gen.ReferenceIdeal.Read
import proofs.«407694_j81235011437264_3_alg».proof.Proof.Spec

noncomputable section

open scoped BigOperators

namespace Cert.ReferenceIdeal.RefValue

open Cert.ReferenceIdeal Cert.ReferenceIdeal.Gen Cert.ReferenceIdeal.Read Idealize.ShloMosaic
open Idealize.ShloMosaic.ValueIdx Cert.TreeLstm

/-! ## Where each operation reads its operands, in coordinates -/

theorem slice_i (n : Fin 200000) (q : Fin 256) : idx_main_v7 (ix2 n q) = ix2 n (colI q) :=
  funext fun a => match a with | ⟨0, _⟩ => rfl | ⟨1, _⟩ => rfl
theorem slice_o (n : Fin 200000) (q : Fin 256) : idx_main_v8 (ix2 n q) = ix2 n (colO q) :=
  funext fun a => match a with | ⟨0, _⟩ => rfl | ⟨1, _⟩ => rfl
theorem slice_u (n : Fin 200000) (q : Fin 256) : idx_main_v9 (ix2 n q) = ix2 n (colU q) :=
  funext fun a => match a with | ⟨0, _⟩ => rfl | ⟨1, _⟩ => rfl

theorem gate_lhs (n : Fin 200000) (j : Fin 768) (k : Fin 256) : lidx_main_v0 (ix2 n j) k = ix2 n k :=
  funext fun a => match a with | ⟨0, _⟩ => rfl | ⟨1, _⟩ => rfl
theorem gate_rhs (n : Fin 200000) (j : Fin 768) (k : Fin 256) : ridx_main_v0 (ix2 n j) k = ix2 j k :=
  funext fun a => match a with | ⟨0, _⟩ => rfl | ⟨1, _⟩ => rfl
theorem gate_bias (n : Fin 200000) (j : Fin 768) : idx_main_v1 (ix2 n j) = ix2 0 j :=
  funext fun a => match a with | ⟨0, _⟩ => rfl | ⟨1, _⟩ => rfl

theorem proj_lhs (n : Fin 200000) (q : Fin 256) (k : Fin 256) : lidx_main_v3 (ix2 n q) k = ix2 n k :=
  funext fun a => match a with | ⟨0, _⟩ => rfl | ⟨1, _⟩ => rfl
theorem proj_rhs (n : Fin 200000) (q : Fin 256) (k : Fin 256) : ridx_main_v3 (ix2 n q) k = ix2 q k :=
  funext fun a => match a with | ⟨0, _⟩ => rfl | ⟨1, _⟩ => rfl
theorem proj_bias (n : Fin 200000) (q : Fin 256) : idx_main_v4 (ix2 n q) = ix2 0 q :=
  funext fun a => match a with | ⟨0, _⟩ => rfl | ⟨1, _⟩ => rfl

/-! ## The stages -/

section
variable (x0 : (⟨S200000x256, .f32⟩ : BufTy).Contents (Elt Ideal)) (x1 : (⟨S200000x768, .f32⟩ : BufTy).Contents (Elt Ideal))
  (x2 : (⟨S200000x256, .f32⟩ : BufTy).Contents (Elt Ideal)) (x3 : (⟨S768x256, .f32⟩ : BufTy).Contents (Elt Ideal))
  (x4 : (⟨S1x768, .f32⟩ : BufTy).Contents (Elt Ideal)) (x5 : (⟨S256x256, .f32⟩ : BufTy).Contents (Elt Ideal))
  (x6 : (⟨S1x256, .f32⟩ : BufTy).Contents (Elt Ideal))

/-- The sum of the projection, the broadcast bias and the child messages is the gate pre-activation. -/
theorem gates_eq (n : Fin 200000) (j : Fin 768) :
    val_main_v6 (F := Ideal) x0 x1 x3 x4 (ix2 n j) = gate x0 x1 x3 x4 n j := by
  rw [val_main_v6_apply, val_main_v2_apply, val_main_v0_apply, val_main_v1_apply]
  simp only [gate_lhs, gate_rhs, gate_bias]
  rfl

/-- The reference's second result is the cell state. -/
theorem cell_eq : val_main_v18 (F := Ideal) x0 x1 x2 x3 x4 = cellArr x0 x1 x2 x3 x4 := by
  funext i
  obtain ⟨n, q, rfl⟩ : ∃ (n : Fin 200000) (q : Fin 256), i = ix2 n q := ⟨i 0, i 1, eq_ix2 i⟩
  rw [cellArr_ix2]
  simp only [val_main_v18_apply, val_main_v17_apply, val_main_v16_apply, val_main_v15_apply, val_main_v14_apply,
    val_main_v13_apply, val_main_v12_apply, val_main_v11_apply, val_main_v10_apply, val_main_v9_apply, val_main_v7_apply,
    val_main_cst_apply, val_main_cst_0_apply, slice_i, slice_u, gates_eq,
    Ideal.addf_def, Ideal.mulf_def, Ideal.hostDivf_def, Ideal.hostUnary_exp_def, Ideal.hostUnary_tanh_def,
    Ideal.hostNegf_def, Ideal.negf_def, Ideal.ofBits_def, one_f32, logistic_eq]
  rfl

/-- The reference's first result is the hidden state. -/
theorem hidden_eq : val_main_v26 (F := Ideal) x0 x1 x2 x3 x4 = hiddenArr x0 x1 x2 x3 x4 := by
  funext i
  obtain ⟨n, q, rfl⟩ : ∃ (n : Fin 200000) (q : Fin 256), i = ix2 n q := ⟨i 0, i 1, eq_ix2 i⟩
  rw [hiddenArr_ix2]
  simp only [val_main_v26_apply, val_main_v25_apply, val_main_v24_apply, val_main_v23_apply, val_main_v22_apply,
    val_main_v21_apply, val_main_v20_apply, val_main_v19_apply, val_main_v8_apply,
    val_main_cst_1_apply, val_main_cst_2_apply, slice_o, gates_eq, cell_eq, cellArr_ix2,
    Ideal.addf_def, Ideal.mulf_def, Ideal.hostDivf_def, Ideal.hostUnary_exp_def, Ideal.hostUnary_tanh_def,
    Ideal.hostNegf_def, Ideal.negf_def, Ideal.ofBits_def, one_f32, logistic_eq]
  rfl

/-- The reference's third result is the forget projection. -/
theorem proj_eq : val_main_v5 (F := Ideal) x0 x5 x6 = projArr x0 x5 x6 := by
  funext i
  obtain ⟨n, q, rfl⟩ : ∃ (n : Fin 200000) (q : Fin 256), i = ix2 n q := ⟨i 0, i 1, eq_ix2 i⟩
  rw [projArr_ix2, val_main_v5_apply, val_main_v3_apply, val_main_v4_apply]
  simp only [proj_lhs, proj_rhs, proj_bias]
  rfl

end

end Cert.ReferenceIdeal.RefValue

end
-- ==== Proof.lean ====
/-
  A fused child-sum Tree-LSTM node update against its plain reference: three results per node, the hidden
  state, the cell state and the forget projection.

  The kernel sweeps the 200000 nodes in 200 blocks of 1000 rows. Per block it multiplies the input rows with the
  transposed gate weights one gate (256 columns) at a time, adds the gate's bias and the gate's 256 columns of the
  child sums, and applies `c = σ(i)·tanh(u) + fc`, `h = σ(o)·tanh(c)`; a fourth product with the transposed forget
  weights plus its bias is the forget projection. The reference forms all 768 gate columns at once,
  `x·Wᵀ + b + U`, slices the three gates out, and spells σ as `1 / (1 + e^(-z))`.

  On the extended reals both are one function, entry by entry (Spec.lean): a product entry is the same sum of 256
  products on both sides, the transposed weights at (k, j) are the weights at (j, k), narrowing to a shorter float
  format is the identity, the two additions of a pre-activation come in the same order, the three slices are the
  three column offsets 0, 256, 512 the kernel loads through, and `1 / (1 + e^(-z))` is the logistic function by
  definition. No step needs the inputs to be finite.

  The kernel's side (Payload.lean, Blocks.lean, KernelValue.lean): what the body stores at an entry of a block, each
  load as an entry of an argument array, and the 200 blocks covering the arrays. The reference's side (RefSide.lean):
  its operations read one at a time. The idealization rewrote nothing, so `preserves` asks nothing.
-/
import proofs.«407694_j81235011437264_3_alg».proof.Defs
import proofs.«407694_j81235011437264_3_alg».proof.Proof.Gen.Kernel
import proofs.«407694_j81235011437264_3_alg».proof.Proof.Gen.Kernel.Skeleton
import proofs.«407694_j81235011437264_3_alg».proof.Proof.Gen.Kernel.Launch
import proofs.«407694_j81235011437264_3_alg».proof.Proof.Gen.Kernel.Points
import proofs.«407694_j81235011437264_3_alg».proof.Proof.Gen.Kernel.Frame
import proofs.«407694_j81235011437264_3_alg».proof.Proof.Gen.KernelIdeal
import proofs.«407694_j81235011437264_3_alg».proof.Proof.Gen.KernelIdeal.Skeleton
import proofs.«407694_j81235011437264_3_alg».proof.Proof.Gen.KernelIdeal.Launch
import proofs.«407694_j81235011437264_3_alg».proof.Proof.Gen.KernelIdeal.Points
import proofs.«407694_j81235011437264_3_alg».proof.Proof.Gen.KernelIdeal.Frame
import proofs.«407694_j81235011437264_3_alg».proof.Proof.Gen.ReferenceIdeal
import proofs.«407694_j81235011437264_3_alg».proof.Proof.Gen.Pre_finite_inputs
import proofs.«407694_j81235011437264_3_alg».proof.Proof.Gen.KernelIdeal.Value
import proofs.«407694_j81235011437264_3_alg».proof.Proof.Gen.ReferenceIdeal.Run
import proofs.«407694_j81235011437264_3_alg».proof.Proof.Gen.ReferenceIdeal.Read
import proofs.«407694_j81235011437264_3_alg».proof.Proof.KernelValue
import proofs.«407694_j81235011437264_3_alg».proof.Proof.RefSide
import Idealize.ShloMosaic.Adequacy
import Idealize.ShloMosaic.Init

noncomputable section

namespace Cert.Proof

open Idealize.ShloMosaic Idealize.SL.Sem Cert.Kernel

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From arguments that agree, the kernel ends at the specification's three arrays of its arguments and the
    reference at the same three arrays of its own: equal results. -/
theorem algebraic : Cert.algebraic_KernelIdeal_ReferenceIdeal := by
  intro m ρ m' ρ' _ hagree
  refine ⟨fun c => Cert.KernelIdeal.Hand.hiddens m c, fun c => Cert.KernelIdeal.Hand.cells m c,
    fun c => Cert.KernelIdeal.Hand.projs m c, Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · rw [Cert.ReferenceIdeal.Read.val_main_v26_eq, Cert.ReferenceIdeal.RefValue.hidden_eq, a0, a1, a2, a3, a4]
  · rw [Cert.ReferenceIdeal.Read.val_main_v18_eq, Cert.ReferenceIdeal.RefValue.cell_eq, a0, a1, a2, a3, a4]
  · rw [Cert.ReferenceIdeal.Read.val_main_v5_eq, Cert.ReferenceIdeal.RefValue.proj_eq, a0, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
